-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S16x4096 .f32) (main_arg2 : FVec F S4096x16 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S512x16 : Shape := ⟨2, ![512, 16]⟩

abbrev nBuf : Space → Nat
  | .hbm => 9
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S4096x16, .f32⟩
  | .hbm, ⟨3, _⟩ => ⟨S4096, .f32⟩
  | .hbm, ⟨4, _⟩ => ⟨S8192x4096, .f32⟩
  | .hbm, ⟨5, _⟩ => ⟨S16x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S16x4096, .f32⟩
  | .local _ .vmem, ⟨3, _⟩ => ⟨S16x4096, .f32⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x4096_S8192x4096 : S4x2048x4096.ShapeCasts S8192x4096
  transposes_S4096x16_S16x4096_1_0 : S4096x16.Transposes [1, 0] S16x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S8192x4096_S4x2048x4096 : S8192x4096.ShapeCasts S4x2048x4096
  dot_S512x4096_S16x4096_S512x16_1_1_0_0_n_n_wf : DotDims.WF S512x4096 S16x4096 S512x16 [1] [1] [0] [0] [] []
  dot_S512x16_S16x4096_S512x4096_1_0_0_1_n_n_wf : DotDims.WF S512x16 S16x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S16x4096_S512x16_1_1_0_0_n_n : DotDims S512x4096 S16x4096 S512x16 where
  lhsContracting := [1]
  rhsContracting := [1]
  lhsNonContracting := [0]
  rhsNonContracting := [0]
  lhsBatch := []
  rhsBatch := []
  wf := dot_S512x4096_S16x4096_S512x16_1_1_0_0_n_n_wf
def dot_S512x16_S16x4096_S512x4096_1_0_0_1_n_n : DotDims S512x16 S16x4096 S512x4096 where
  lhsContracting := [1]
  rhsContracting := [0]
  lhsNonContracting := [0]
  rhsNonContracting := [1]
  lhsBatch := []
  rhsBatch := []
  wf := dot_S512x16_S16x4096_S512x4096_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16x4096 : Shape := ⟨2, ![16, 4096]⟩
abbrev S4096x16 : Shape := ⟨2, ![4096, 16]⟩
abbrev S4096 : Shape := ⟨1, ![4096]⟩
abbrev S4096x4096 : Shape := ⟨2, ![4096, 4096]⟩
abbrev S_ : Shape := ⟨0, ![]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S4096x16, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4x2048x4096, .f32⟩
  | .hbm, ⟨9, _⟩ => ⟨S1x1x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.FiniteEntries.lean ====
/-
  Under the precondition every entry of the four argument arrays is a real.

  The precondition is the conjunction, over the four arrays, of "every entry's absolute value is below +∞". On the
  extended reals |v| = max v (-v), which is +∞ exactly at v = +∞ and at v = -∞; so |v| < +∞ leaves the reals.
-/
import proofs.«141997_j14448269984184_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

open Idealize.ShloMosaic

namespace Cert.FiniteEntries

open Cert.Pre_finite_inputs Cert.Pre_finite_inputs.Gen

/-- The shape of a scalar has one index. -/
instance : Subsingleton S_.Idx := ⟨fun a b => funext fun d => d.elim0⟩

/-- An extended real whose absolute value max v (-v) compares below the word of +∞ is a real: at v = -∞ the maximum
    is -(-∞) = +∞, at v = +∞ it is +∞, and +∞ is not below itself. -/
theorem real_of_abs_lt_inf (v : EReal)
    (h : Ideal.cmp .olt (max v (-v)) (Ideal.ofBits .f32 0x7F800000#32) = 1#1) : ∃ r : ℝ, v = r := by
  have htop : Ideal.ofBits .f32 0x7F800000#32 = (⊤ : EReal) := by simp [Ideal.ofBits, Ideal.ieee]
  rw [htop] at h
  induction v using EReal.rec with
  | bot => simp [Ideal.cmp] at h
  | coe r => exact ⟨r, rfl⟩
  | top => simp [Ideal.cmp] at h

/-- One conjunct of the precondition, for an array of any shape: if the conjunction over all entries of
    "|entry| < +∞" is true, every entry is a real. The conjunction over all indices gives the comparison at each index,
    where the broadcast scalar reads the word of +∞. -/
theorem real_of_all {s : Shape} {axes : List (Fin s.rank)} (hbc : S_.BroadcastsInDim s (![] : Fin 0 → Fin s.rank))
    (hrt : s.ReducesTo axes S_) (hu : 0 < S_.numel) (x : FVec Ideal s .f32)
    (e : Host.reduce IntOp.andi
        (cmpf .olt (Host.absf x) (broadcastInDim s ![] hbc (constant S_ .f32 0x7F800000#32)))
        (constantI S_ 1 1#1) hrt hu ValueIdx.ix0 = 1#1)
    (i : s.Idx) : ∃ v : ℝ, x i = v := by
  have hi := Host.reduce_andi_all _ _ hrt hu ValueIdx.ix0 e i
  have hb : broadcastInDim s ![] hbc (constant (F := Ideal) S_ .f32 0x7F800000#32) i = Ideal.ofBits .f32 0x7F800000#32 :=
    broadcastInDim_apply ![] hbc _ i ValueIdx.ix0 (fun a => a.elim0)
  have hi' : Ideal.cmp .olt (max (x i) (-(x i)))
      (broadcastInDim s ![] hbc (constant (F := Ideal) S_ .f32 0x7F800000#32) i) = 1#1 := hi
  rw [hb] at hi'
  exact real_of_abs_lt_inf _ hi'

/-- The precondition of the certificate, at the exact instance: all four arrays hold reals only. -/
theorem entries_real (x : FVec Ideal S4x2048x4096 .f32) (a : FVec Ideal S16x4096 .f32) (b : FVec Ideal S4096x16 .f32)
    (d : FVec Ideal S4096 .f32) (h : fn (F := Ideal) x a b d = fun _ => 1#1) :
    (∀ i, ∃ v : ℝ, x i = v) ∧ (∀ i, ∃ v : ℝ, a i = v) ∧ (∀ i, ∃ v : ℝ, b i = v) ∧ (∀ i, ∃ v : ℝ, d i = v) := by
  have h0 := congrFun h ValueIdx.ix0
  dsimp only [fn, fn_part1] at h0
  have h1 : IntOp.andi (IntOp.andi (IntOp.andi _ _) _) _ = 1#1 := h0
  rw [IntOp.andi_eq_one, IntOp.andi_eq_one, IntOp.andi_eq_one] at h1
  obtain ⟨⟨⟨hx, ha⟩, hb⟩, hd⟩ := h1
  exact ⟨real_of_all _ _ _ x hx, real_of_all _ _ _ a ha, real_of_all _ _ _ b hb, real_of_all _ _ _ d hd⟩

end Cert.FiniteEntries

end
-- ==== Proof.LibLowRank.lean ====
/-
  A product through a low-rank bottleneck, re-associated, on the extended reals; and the matrix unit's plain product
  into a zero accumulator read at an index.

  Over the reals
      Σ_r ((Σ_k x k · a r k) · c) · b r  =  Σ_k x k · ((Σ_r b r · a r k) · c):
  both sides are c times the double sum of x k · a r k · b r, the left grouped by r first and the right by k first.
  On the extended reals a product does not distribute over a sum at the infinities (∞ · (1 + (-1)) is 0 while
  ∞ · 1 + ∞ · (-1) is not), so the law is stated for entries that are reals and proved by carrying both sides back to ℝ.
-/
import Idealize.ShloMosaic.PureOps.Ideal.Laws
import Idealize.ShloMosaic.Lib.ValueIdx
import Idealize.ShloMosaic.Lib.StackMember

noncomputable section

open scoped BigOperators

namespace LowRank

open Idealize.ShloMosaic Idealize.ShloMosaic.ValueIdx

/-- A finite sum of reals read in the extended reals is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The re-association over the reals: distribute both products over the inner sums, swap the two sums, and compare
    term by term. -/
theorem reassoc_real {ι κ : Type} [Fintype ι] [Fintype κ] (x : ι → ℝ) (a : κ → ι → ℝ) (b : κ → ℝ) (c : ℝ) :
    ∑ r, ((∑ k, x k * a r k) * c) * b r = ∑ k, x k * ((∑ r, b r * a r k) * c) := by
  simp only [Finset.sum_mul, Finset.mul_sum]
  rw [Finset.sum_comm]
  exact Finset.sum_congr rfl fun _ _ => Finset.sum_congr rfl fun _ _ => by ring

/-- The re-association on the extended reals, for entries that are reals: every product and every sum of reals is the
    real product and the real sum, so both sides are the readings of the two real sides. -/
theorem reassoc {ι κ : Type} [Fintype ι] [Fintype κ] (x : ι → EReal) (a : κ → ι → EReal) (b : κ → EReal) (c : EReal)
    (hx : ∀ k, ∃ v : ℝ, x k = v) (ha : ∀ r k, ∃ v : ℝ, a r k = v) (hb : ∀ r, ∃ v : ℝ, b r = v) (hc : ∃ v : ℝ, c = v) :
    ∑ r, ((∑ k, x k * a r k) * c) * b r = ∑ k, x k * ((∑ r, b r * a r k) * c) := by
  choose x' hx' using hx
  choose a' ha' using ha
  choose b' hb' using hb
  obtain ⟨c', rfl⟩ := hc
  simp only [hx', ha', hb', ← EReal.coe_mul, ← coe_sum]
  exact congrArg (fun v : ℝ => (v : EReal)) (reassoc_real x' a' b' c')

/-- The word of the float 2.0 denotes a real. -/
theorem two_real : ∃ v : ℝ, Ideal.ofBits .f32 0x40000000#32 = (v : EReal) := by
  simp only [Ideal.ofBits, Ideal.ieee]
  norm_num
  exact ⟨_, (EReal.coe_mul _ _).symm⟩

variable {m k n : ℕ}

/-- An m×k matrix times a k×n matrix on the matrix unit, accumulated into the zero splat, at (a, b): the sum over the
    contracted coordinate of the products of the entries. Into a zero accumulator the matrix unit's product is the
    host's, whose plain form the library reads at an index. -/
theorem matmulPlain_apply {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

end LowRank

end
-- ==== Proof.LowRankLinear.lean ====
/-
  The low-rank linear layer, as one function of its four argument arrays.

  x is a stack of 4 × 2048 rows of 4096 numbers, A is 16 × 4096, B is 4096 × 16, and the bias has 4096 entries. The
  weight matrix is W (o, k) = (Σ_r B (o, r) · A (r, k)) · 2, a product through a bottleneck of width 16, and the layer is
      out (b, s, o) = Σ_k x (b, s, k) · W (o, k) + bias o.
  The same number can be reached through the bottleneck without forming W: first the 16 numbers
  (Σ_k x (b, s, k) · A (r, k)) · 2, then their combination with row o of B. The two agree when x, A and B hold reals;
  the bias is added last on both sides and may be any extended real.
-/
import Idealize.ShloMosaic.PureOps.Ideal.Laws
import Idealize.ShloMosaic.Lib.ValueIdx
import proofs.«141997_j14448269984184_1_alg».proof.Proof.LibLowRank

noncomputable section

open scoped BigOperators

namespace Cert.LowRankLinear

open Idealize.ShloMosaic Idealize.ShloMosaic.ValueIdx

/-- The scale 2.0, kept as the float's word: both programs carry the same word, so it is never evaluated. -/
abbrev scale : EReal := Ideal.ofBits .f32 0x40000000#32

/-- Entry (b, s, o) of the layer with the weight matrix formed first. -/
def entry (x : (⟨3, ![4, 2048, 4096]⟩ : Shape).Idx → EReal) (A : (⟨2, ![16, 4096]⟩ : Shape).Idx → EReal)
    (B : (⟨2, ![4096, 16]⟩ : Shape).Idx → EReal) (bias : (⟨1, ![4096]⟩ : Shape).Idx → EReal)
    (b : Fin 4) (s : Fin 2048) (o : Fin 4096) : EReal :=
  (∑ k : Fin 4096, x (ix3 b s k) * ((∑ r : Fin 16, B (ix2 o r) * A (ix2 r k)) * scale)) + bias (ix1 o)

/-- The whole result array. -/
def out (x : (⟨3, ![4, 2048, 4096]⟩ : Shape).Idx → EReal) (A : (⟨2, ![16, 4096]⟩ : Shape).Idx → EReal)
    (B : (⟨2, ![4096, 16]⟩ : Shape).Idx → EReal) (bias : (⟨1, ![4096]⟩ : Shape).Idx → EReal) :
    (⟨3, ![4, 2048, 4096]⟩ : Shape).Idx → EReal :=
  fun i => entry x A B bias (i 0) (i 1) (i 2)

/-- Through the bottleneck: for x, A and B holding reals, combining the 16 scaled row products with row o of B gives
    the entry. -/
theorem bottleneck_eq_entry (x : (⟨3, ![4, 2048, 4096]⟩ : Shape).Idx → EReal) (A : (⟨2, ![16, 4096]⟩ : Shape).Idx → EReal)
    (B : (⟨2, ![4096, 16]⟩ : Shape).Idx → EReal) (bias : (⟨1, ![4096]⟩ : Shape).Idx → EReal)
    (hx : ∀ i, ∃ v : ℝ, x i = v) (hA : ∀ i, ∃ v : ℝ, A i = v) (hB : ∀ i, ∃ v : ℝ, B i = v)
    (b : Fin 4) (s : Fin 2048) (o : Fin 4096) :
    (∑ r : Fin 16, ((∑ k : Fin 4096, x (ix3 b s k) * A (ix2 r k)) * scale) * B (ix2 o r)) + bias (ix1 o)
      = entry x A B bias b s o := by
  unfold entry
  rw [LowRank.reassoc (fun k => x (ix3 b s k)) (fun r k => A (ix2 r k)) (fun r => B (ix2 o r)) scale
    (fun k => hx _) (fun r k => hA _) (fun r => hB _) LowRank.two_real]

end Cert.LowRankLinear

end
-- ==== Proof.ReferenceValue.lean ====
/-
  What the reference computes is the low-rank linear layer.

  The reference forms the weight matrix W = (B · A) · 2 whole, contracts x with it over the last axis of both, and adds the
  bias broadcast along the last axis. Read at an index (b, s, o), operation by operation, that is the layer's entry as
  written: only the index functions of the two products and of the two broadcasts have to be identified with the
  coordinates.
-/
import proofs.«141997_j14448269984184_1_alg».proof.Proof.Gen.ReferenceIdeal.Read
import proofs.«141997_j14448269984184_1_alg».proof.Proof.LowRankLinear

noncomputable section

open scoped BigOperators

namespace Cert.ReferenceValue

open Idealize.ShloMosaic Idealize.ShloMosaic.ValueIdx Cert.ReferenceIdeal Cert.ReferenceIdeal.Read

/-- The reference's last stage, at the exact instance, is the layer. -/
theorem stage_eq_out (x0 : FVec Ideal S4x2048x4096 .f32) (x1 : FVec Ideal S16x4096 .f32) (x2 : FVec Ideal S4096x16 .f32)
    (x3 : FVec Ideal S4096 .f32) :
    val_main_v6 (F := Ideal) x0 x1 x2 x3 = Cert.LowRankLinear.out x0 x1 x2 x3 := by
  funext i
  -- the left factor of the outer product reads x at (b, s, k)
  have e1 : ∀ k : Fin 4096, lidx_main_v3 i k = ix3 (i 0) (i 1) k := fun k =>
    funext fun a => Fin.ext (by match a with | ⟨0, _⟩ => rfl | ⟨1, _⟩ => rfl | ⟨2, _⟩ => rfl)
  -- its right factor reads W at (o, k), whose own factors read B at (o, r) and A at (r, k)
  have e2 : ∀ (k : Fin 4096) (r : Fin 16), lidx_main_v0 (ridx_main_v3 i k) r = ix2 (i 2) r := fun k r =>
    funext fun a => Fin.ext (by match a with | ⟨0, _⟩ => rfl | ⟨1, _⟩ => rfl)
  have e3 : ∀ (k : Fin 4096) (r : Fin 16), ridx_main_v0 (ridx_main_v3 i k) r = ix2 r k := fun k r =>
    funext fun a => Fin.ext (by match a with | ⟨0, _⟩ => rfl | ⟨1, _⟩ => rfl)
  -- the bias, broadcast twice, reads entry o
  have e4 : idx_main_v4 (idx_main_v5 i) = ix1 (i 2) :=
    funext fun a => Fin.ext (by match a with | ⟨0, _⟩ => rfl)
  rw [val_main_v6_apply, val_main_v3_apply, val_main_v5_apply, val_main_v4_apply, e4]
  simp only [val_main_v2_apply, val_main_v0_apply, val_main_v1_apply, val_main_cst_apply, e1, e2, e3]
  rfl

end Cert.ReferenceValue

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.KernelBlock.lean ====
/-
  What the kernel body stores, read at an index of the block.

  The body loads a block of 512 rows of x, the whole of A (16 × 4096), the whole of the transposed B (16 × 4096) and the bias as
  one row. It multiplies the rows of x with the rows of A on the matrix unit (both contracted on their last axis), scales the
  512 × 16 result by 2, multiplies that with the transposed B (a plain product over the bottleneck of width 16), and adds the
  bias row to every row. Both products go into zero accumulators, so each is a plain finite sum; the three shape casts in the body
  are casts of a shape to itself.
  At row p and column o of the block this is
      Σ_r ((Σ_k x (p, k) · A (r, k)) · 2) · Bt (r, o) + bias (0, o).
-/
import proofs.«141997_j14448269984184_1_alg».proof.Proof.Gen.KernelIdeal.Skeleton
import proofs.«141997_j14448269984184_1_alg».proof.Proof.LibLowRank
import proofs.«141997_j14448269984184_1_alg».proof.Proof.LibRowLayers
import proofs.«141997_j14448269984184_1_alg».proof.Proof.LowRankLinear
import Idealize.ShloMosaic.Lib.ValueLayout
import Idealize.ShloMosaic.Lib.Pipeline.Value

noncomputable section

open scoped BigOperators

namespace Cert.KernelBlock

open Idealize.ShloMosaic Idealize.ShloMosaic.ValueIdx Cert.KernelIdeal Cert.KernelIdeal.Gen

/-- The stored value at (p, o), over any four loaded blocks. The two dimension records of the body are the library's
    "right operand contracted on its last axis" and "plain" records at these extents. -/
theorem payload_apply (x0 : Vec Ideal S512x4096 .f32) (x1 x2 : Vec Ideal S16x4096 .f32) (x3 : Vec Ideal S1x4096 .f32)
    (p : Fin 512) (o : Fin 4096) :
    k0_pay1 (F := Ideal) x0 x1 x2 x3 (ix2 p o)
      = (∑ r : Fin 16, ((∑ k : Fin 4096, x0 (ix2 p k) * x1 (ix2 r k)) * Cert.LowRankLinear.scale) * x2 (ix2 r o))
          + x3 (ix2 (0 : Fin 1) o) := by
  unfold k0_pay1
  rw [show dot_S512x4096_S16x4096_S512x16_1_1_0_0_n_n = DotDims.transposedRhs 512 4096 16 from rfl,
    show dot_S512x16_S16x4096_S512x4096_1_0_0_1_n_n = DotDims.plain 512 16 4096 from rfl]
  -- the sum of the two terms; the outer product over the bottleneck; the bias row broadcast down the rows
  rw [addf_apply, LowRank.matmulPlain_apply, broadcastTo_1b_ab_apply]
  simp only [shapeCast_self]
  refine congrArg (· + x3 (ix2 (0 : Fin 1) o)) (Finset.sum_congr rfl fun r _ => ?_)
  -- the scaled inner product at (p, r)
  rw [mulf_apply, RowLayers.matmulT_apply]
  rfl

end Cert.KernelBlock

end
-- ==== Proof.KernelRegion.lean ====
/-
  The output array of the call, after all sixteen grid points.

  The call sees four 2-D arrays: X (8192 × 4096, the rows of x laid one under another), A (16 × 4096), Bt (16 × 4096, B
  transposed) and the bias as one row. Grid point t handles rows 512·t … 512·t + 511: window 0 and the output window move
  with t along the rows, the other three windows stay on their whole arrays. So the four blocks the body loads at point t
  are X's rows from 512·t on and the other three arrays themselves, and what the body stores at (p, o) is the entry at row
  512·t + p and column o of
      rowEntry (r, o) = Σ_q ((Σ_k X (r, k) · A (q, k)) · 2) · Bt (q, o) + bias (0, o).
  The sixteen output blocks tile the 8192 rows (row r lies in the block of point r / 512), so the output array ends
  holding rowEntry everywhere.
-/
import proofs.«141997_j14448269984184_1_alg».proof.Proof.Gen.KernelIdeal.Frame
import proofs.«141997_j14448269984184_1_alg».proof.Proof.KernelBlock
import Idealize.ShloMosaic.Lib.Pipeline.Value

-- membership in a rectangle of these extents recurses once per coordinate of the long axes
set_option maxRecDepth 16384

noncomputable section

open scoped BigOperators

namespace Cert.KernelRegion

open Idealize.ShloMosaic Idealize.ShloMosaic.ValueIdx Idealize.ShloMosaic.TcCoe Idealize.SL.Sem Cert.KernelIdeal Cert.KernelIdeal.Gen
open Idealize.ShloMosaic.Pipeline (Dat)
open Cert.LowRankLinear (scale)

/-- Entry (r, o) of the call's result, from its four 2-D operands. -/
def rowEntry (X : S8192x4096.Idx → EReal) (A Bt : S16x4096.Idx → EReal) (b2 : S1x4096.Idx → EReal)
    (r : Fin 8192) (o : Fin 4096) : EReal :=
  (∑ q : Fin 16, ((∑ k : Fin 4096, X (ix2 r k) * A (ix2 q k)) * scale) * Bt (ix2 q o)) + b2 (ix2 (0 : Fin 1) o)

/-- The call's whole result. -/
def rows (X : S8192x4096.Idx → EReal) (A Bt : S16x4096.Idx → EReal) (b2 : S1x4096.Idx → EReal) : S8192x4096.Idx → EReal :=
  fun j => rowEntry X A Bt b2 (j 0) (j 1)

/-- One block: if x0 holds X's rows from 512·T on and the other three blocks are the whole arrays, the body's stored
    value at y is the result's entry at row 512·T + y₀ and column y₁. -/
theorem block_eq (X : S8192x4096.Idx → EReal) (A Bt : S16x4096.Idx → EReal) (b2 : S1x4096.Idx → EReal)
    (x0 : Vec Ideal S512x4096 .f32) (x1 x2 : Vec Ideal S16x4096 .f32) (x3 : Vec Ideal S1x4096 .f32) (T : ℕ) (hT : T < 16)
    (h0 : ∀ (p : Fin 512) (k : Fin 4096), x0 (ix2 p k) = X (ix2 (⟨T * 512 + p.val, by omega⟩ : Fin 8192) k))
    (h1 : ∀ (q : Fin 16) (k : Fin 4096), x1 (ix2 q k) = A (ix2 q k))
    (h2 : ∀ (q : Fin 16) (o : Fin 4096), x2 (ix2 q o) = Bt (ix2 q o))
    (h3 : ∀ o : Fin 4096, x3 (ix2 (0 : Fin 1) o) = b2 (ix2 (0 : Fin 1) o))
    (y : S512x4096.Idx) (i : S8192x4096.Idx) (hi0 : (i 0).val = T * 512 + (y 0).val) (hi1 : (i 1).val = (y 1).val) :
    k0_pay1 (F := Ideal) x0 x1 x2 x3 y = rows X A Bt b2 i := by
  obtain ⟨p, o, rfl⟩ : ∃ (p : Fin 512) (o : Fin 4096), y = ix2 p o := ⟨y 0, y 1, eq_ix2 y⟩
  have i0 : i 0 = (⟨T * 512 + p.val, by omega⟩ : Fin 8192) := Fin.ext hi0
  have i1 : i 1 = o := Fin.ext hi1
  rw [Cert.KernelBlock.payload_apply]
  unfold rows rowEntry
  simp only [h0, h1, h2, h3, i0, i1]

variable (m : (ℓ : Loc nD τ sig) → Buf (Elt Ideal) ℓ)

theorem offsets_zero : (![0, 0] : Fin 2 → Nat) = fun _ => 0 := funext fun a => by fin_cases a <;> rfl

/-- The five index maps over the grid: the first and the last window are at block (t, 0), the other three at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the result of the four arrays as the call finds them. A block's coordinate in
    its array is always block index × block extent + 1 × the coordinate inside the block. -/
theorem flushed_eq (c : Dev nD) (t : Fin cfg0.N) :
    (dats m 0 c).flushed 4 t = ((cfg0.win 4).blk t).view.read (Elt Ideal)
      (rows (V m c main_v0) (V m c main_arg1) (V m c main_v1) (V m c main_v2)) := by
  show (cfg0.win 4).cut (grid0.coords t) ((dats m 0 c).after 4 t) = _
  rw [after0_4]
  unfold out0_4
  rw [View.canon_unit_zero offsets_zero]
  simp only [View.ld_unit_zero (S := S512x4096) offsets_zero, View.ld_unit_zero (S := S16x4096) offsets_zero,
    View.ld_unit_zero (S := S1x4096) offsets_zero]
  obtain ⟨e00, e01, e10, e11, e20, e21, e30, e31, e40, e41⟩ := index_facts t
  have hT : t.val < 16 := lt_of_lt_of_eq t.isLt N_0
  funext j
  show k0_pay1 (F := Ideal) (iblk m c 0 t) (iblk m c 1 t) (iblk m c 2 t) (iblk m c 3 t) j
    = rows (V m c main_v0) (V m c main_arg1) (V m c main_v1) (V m c main_v2) (((cfg0.win 4).blk t).view.emb j)
  refine block_eq (V m c main_v0) (V m c main_arg1) (V m c main_v1) (V m c main_v2)
    (iblk m c 0 t) (iblk m c 1 t) (iblk m c 2 t) (iblk m c 3 t) t.val hT ?_ ?_ ?_ ?_ j (((cfg0.win 4).blk t).view.emb j) ?_ ?_
  · intro p k
    show V m c main_v0 (((cfg0.win 0).blk t).view.emb (ix2 p k)) = _
    refine congrArg (V m c main_v0) (funext fun a => Fin.ext ?_)
    match a with
    | ⟨0, _⟩ => show win0_0.index t (0 : Fin 2) * 512 + 1 * p.val = t.val * 512 + p.val; omega
    | ⟨1, _⟩ => show win0_0.index t (1 : Fin 2) * 4096 + 1 * k.val = k.val; omega
  · intro q k
    show V m c main_arg1 (((cfg0.win 1).blk t).view.emb (ix2 q k)) = _
    refine congrArg (V m c main_arg1) (funext fun a => Fin.ext ?_)
    match a with
    | ⟨0, _⟩ => show win0_1.index t (0 : Fin 2) * 16 + 1 * q.val = q.val; omega
    | ⟨1, _⟩ => show win0_1.index t (1 : Fin 2) * 4096 + 1 * k.val = k.val; omega
  · intro q o
    show V m c main_v1 (((cfg0.win 2).blk t).view.emb (ix2 q o)) = _
    refine congrArg (V m c main_v1) (funext fun a => Fin.ext ?_)
    match a with
    | ⟨0, _⟩ => show win0_2.index t (0 : Fin 2) * 16 + 1 * q.val = q.val; omega
    | ⟨1, _⟩ => show win0_2.index t (1 : Fin 2) * 4096 + 1 * o.val = o.val; omega
  · intro o
    show V m c main_v2 (((cfg0.win 3).blk t).view.emb (ix2 (0 : Fin 1) o)) = _
    refine congrArg (V m c main_v2) (funext fun a => Fin.ext ?_)
    match a with
    | ⟨0, _⟩ => show win0_3.index t (0 : Fin 2) * 1 + 1 * (0 : Fin 1).val = (0 : Fin 1).val; omega
    | ⟨1, _⟩ => show win0_3.index t (1 : Fin 2) * 4096 + 1 * o.val = o.val; omega
  · show win0_4.index t (0 : Fin 2) * 512 + 1 * (j 0).val = t.val * 512 + (j 0).val; omega
  · show win0_4.index t (1 : Fin 2) * 4096 + 1 * (j 1).val = (j 1).val; omega

/-- An index of the output array is in point t's block iff each coordinate is in the block's range on its axis. -/
theorem mem_blk (t : Fin cfg0.N) (i : S8192x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v3).slice (win0_4.rect t)).set ↔ _
  rw [View.set_slice_whole, Rect.mem_set_unit]
  exact Iff.rfl

/-- Every index of the output array is in the block of the point its row falls to: row r belongs to point r / 512. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hlt : (i 0).val / 512 < grid0.N := by rw [N_0]; omega
  obtain ⟨-, -, -, -, -, -, -, -, e40, e41⟩ := index_facts (⟨(i 0).val / 512, hlt⟩ : Fin cfg0.N)
  refine ⟨⟨(i 0).val / 512, hlt⟩, flush0_4 _, ?_⟩
  rw [mem_blk]
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    rw [e40]; show (i 0).val / 512 * 512 ≤ (i 0).val ∧ (i 0).val < (i 0).val / 512 * 512 + 512; omega
  | ⟨1, _⟩ =>
    show win0_4.index ⟨(i 0).val / 512, hlt⟩ (1 : Fin 2) * 4096 ≤ (i 1).val
      ∧ (i 1).val < win0_4.index ⟨(i 0).val / 512, hlt⟩ (1 : Fin 2) * 4096 + 4096
    rw [e41]; omega

/-- The output array after the last point: the result of the four arrays as the call finds them. -/
theorem region_result (c : Dev nD) :
    (dats m 0 c).arrAt 4 cfg0.N = rows (V m c main_v0) (V m c main_arg1) (V m c main_v1) (V m c main_v2) :=
  (dats m 0 c).arrAt_eq_of_cover 4 _ (fun t _ => flushed_eq m c t) cover

end Cert.KernelRegion

end
-- ==== Proof.KernelRun.lean ====
/-
  The kernel's run: the program's result array is the low-rank linear layer of its arguments.

  Before the call the program lays the rows of x one under another (X, 8192 × 4096: row 2048·b + s is row (b, s) of x),
  transposes B (Bt (q, o) = B (o, q)) and makes the bias one row; after it, it folds the 8192 rows of the call's result
  back into 4 × 2048. So entry (b, s, o) of the program's result is the call's entry at row 2048·b + s and column o, which
  over the arguments reads
      Σ_q ((Σ_k x (b, s, k) · A (q, k)) · 2) · B (o, q) + bias o:
  the layer reached through the bottleneck. For x, A and B holding reals this is the layer's entry.
-/
import proofs.«141997_j14448269984184_1_alg».proof.Proof.KernelRegion
import Idealize.ShloMosaic.Lib.StableHlo.Run
import Idealize.ShloMosaic.Lib.ValueLayout
import Idealize.ShloMosaic.Lib.Pipeline.Value

set_option maxRecDepth 16384

noncomputable section

open scoped BigOperators

namespace Cert.KernelRun

open Idealize.ShloMosaic Idealize.ShloMosaic.ValueIdx Idealize.ShloMosaic.TcCoe Idealize.SL.Sem Cert.KernelIdeal Cert.KernelIdeal.Gen
open Idealize.ShloMosaic.Pipeline (Dat)
open Cert.LowRankLinear (scale)
open Cert.KernelRegion (rowEntry rows)

/-- The rows laid one under another: row r = 2048·b + s of the 2-D array is row (b, s) of the stack. Both sit at the same
    place in row-major order. -/
theorem flatten_apply {α : Type} (x : S4x2048x4096.Idx → α) (h : S4x2048x4096.ShapeCasts S8192x4096)
    (b : Fin 4) (s : Fin 2048) (k : Fin 4096) (r : Fin 8192) (hr : r.val = b.val * 2048 + s.val) :
    shapeCast S8192x4096 x h (ix2 r k) = x (ix3 b s k) :=
  shapeCast_apply x h _ _ (by
    rw [Shape.rowMajor_val_three, Shape.rowMajor_val_two]
    show (b.val * 2048 + s.val) * 4096 + k.val = r.val * 4096 + k.val
    rw [hr])

/-- And folded back: row (b, s) of the stack is row 2048·b + s of the 2-D array. -/
theorem unflatten_apply {α : Type} (y : S8192x4096.Idx → α) (h : S8192x4096.ShapeCasts S4x2048x4096)
    (b : Fin 4) (s : Fin 2048) (o : Fin 4096) (r : Fin 8192) (hr : r.val = b.val * 2048 + s.val) :
    shapeCast S4x2048x4096 y h (ix3 b s o) = y (ix2 r o) :=
  shapeCast_apply y h _ _ (by
    rw [Shape.rowMajor_val_two, Shape.rowMajor_val_three]
    show r.val * 4096 + o.val = (b.val * 2048 + s.val) * 4096 + o.val
    rw [hr])

/-- The call's entry at row 2048·b + s, over the arguments: x's row (b, s), B read transposed, the bias row read as the
    bias vector. -/
theorem rowEntry_args (x : S4x2048x4096.Idx → EReal) (A : S16x4096.Idx → EReal) (B : S4096x16.Idx → EReal)
    (bias : S4096.Idx → EReal) (h1 : S4x2048x4096.ShapeCasts S8192x4096) (h2 : S4096x16.Transposes [1, 0] S16x4096)
    (h3 : S4096.ShapeCasts S1x4096) (b : Fin 4) (s : Fin 2048) (o : Fin 4096) (r : Fin 8192)
    (hr : r.val = b.val * 2048 + s.val) :
    rowEntry (shapeCast S8192x4096 x h1) A (transpose S16x4096 [1, 0] B h2) (shapeCast S1x4096 bias h3) r o
      = (∑ q : Fin 16, ((∑ k : Fin 4096, x (ix3 b s k) * A (ix2 q k)) * scale) * B (ix2 o q)) + bias (ix1 o) := by
  unfold rowEntry
  simp only [flatten_apply x h1 b s _ r hr, shapeCast_a_1a_apply]
  refine congrArg (· + bias (ix1 o)) (Finset.sum_congr rfl fun q _ => ?_)
  rw [transpose_ix2_apply B h2 q o]

variable (m : (ℓ : Loc nD τ sig) → Buf (Elt Ideal) ℓ) (ρ : Dev nD → PrngReg)

/-- The four argument arrays on core c, at their literal types. -/
abbrev argX (c : Dev nD) : S4x2048x4096.Idx → EReal := m ((c : Thread nD τ).loc main_arg0)
abbrev argA (c : Dev nD) : S16x4096.Idx → EReal := m ((c : Thread nD τ).loc main_arg1)
abbrev argB (c : Dev nD) : S4096x16.Idx → EReal := m ((c : Thread nD τ).loc main_arg2)
abbrev argBias (c : Dev nD) : S4096.Idx → EReal := m ((c : Thread nD τ).loc main_arg3)

/-- The three arrays the program writes before the call, as the call finds them. -/
theorem rowsOfX (c : Dev nD) : (V m c main_v0 : S8192x4096.Idx → EReal)
    = shapeCast S8192x4096 (argX m c) shapeCasts_S4x2048x4096_S8192x4096 := by
  show StableHlo.after hostOps0 (fun b => m (c, b)) (Proc.devRef .tc main_v0) = _
  after_results
  rfl
theorem transposedB (c : Dev nD) : (V m c main_v1 : S16x4096.Idx → EReal)
    = transpose S16x4096 [1, 0] (argB m c) transposes_S4096x16_S16x4096_1_0 := by
  show StableHlo.after hostOps0 (fun b => m (c, b)) (Proc.devRef .tc main_v1) = _
  after_results
theorem biasRow (c : Dev nD) : (V m c main_v2 : S1x4096.Idx → EReal)
    = shapeCast S1x4096 (argBias m c) shapeCasts_S4096_S1x4096 := by
  show StableHlo.after hostOps0 (fun b => m (c, b)) (Proc.devRef .tc main_v2) = _
  after_results
  rfl

/-- The program's result buffer after the one operation that follows the call: the call's output array, its rows folded
    back into the stack. -/
theorem folded (c : Dev nD) :
    Pipeline.afterTail₀ cfgs (dats m) 0 (V0 m) [hostOps1] c main_v4
      = shapeCast S4x2048x4096 ((dats m 0 c).arrAt 4 cfg0.N) shapeCasts_S8192x4096_S4x2048x4096 := by
  unfold Pipeline.afterTail₀
  show StableHlo.after hostOps1 _ (Proc.devRef .tc main_v4) = _
  after_results
  exact congrArg (fun y => shapeCast S4x2048x4096 y shapeCasts_S8192x4096_S4x2048x4096)
    (Pipeline.withArrays_arr spec0 launch0.win.arr_inj c (V0 m c) (fun w => (dats m 0 c).arrAt w cfg0.N) 4)

/-- The program's result is the layer of its arguments, when x, A and B hold reals: entry (b, s, o) is the call's entry
    at row 2048·b + s, which over the arguments is the layer reached through the bottleneck. -/
theorem result_eq (c : Dev nD)
    (hx : ∀ i, ∃ v : ℝ, argX m c i = v) (hA : ∀ i, ∃ v : ℝ, argA m c i = v) (hB : ∀ i, ∃ v : ℝ, argB m c i = v) :
    Pipeline.afterTail₀ cfgs (dats m) 0 (V0 m) [hostOps1] c main_v4
      = Cert.LowRankLinear.out (argX m c) (argA m c) (argB m c) (argBias m c) := by
  rw [folded, Cert.KernelRegion.region_result, rowsOfX, transposedB, biasRow, V_main_arg1]
  funext i
  obtain ⟨b, s, o, rfl⟩ : ∃ (b : Fin 4) (s : Fin 2048) (o : Fin 4096), i = ix3 b s o := ⟨i 0, i 1, i 2, eq_ix3 i⟩
  have hlt : b.val * 2048 + s.val < 8192 := by have := b.isLt; have := s.isLt; omega
  rw [unflatten_apply _ _ b s o ⟨b.val * 2048 + s.val, hlt⟩ rfl]
  show rowEntry _ _ _ _ ⟨b.val * 2048 + s.val, hlt⟩ o = Cert.LowRankLinear.entry _ _ _ _ b s o
  rw [rowEntry_args _ _ _ _ _ _ _ b s o ⟨b.val * 2048 + s.val, hlt⟩ rfl]
  exact Cert.LowRankLinear.bottleneck_eq_entry _ _ _ _ hx hA hB b s o

/-- Every weakly fair execution of the program, from a memory whose x, A and B hold reals, terminates with the result
    buffer at the layer of the arguments and the arguments as they were. The result buffer and three of the arguments
    are not arrays of the call, so the run hands them over as the operation after the call leaves them; the fourth (A) is
    an input array of the call, which ends at its contents on entry. -/
theorem run (hx : ∀ (c : Dev nD) i, ∃ v : ℝ, argX m c i = v) (hA : ∀ (c : Dev nD) i, ∃ v : ℝ, argA m c i = v)
    (hB : ∀ (c : Dev nD) i, ∃ v : ℝ, argB m c i = v) :
    θ_run defs (onTc (τ := τ) (main (F := Ideal))) ⟨m, fun _ => 0, ρ⟩ (fun r => ∀ c : Dev nD,
      r.2.mem ((c.tc : Thread nD τ).loc main_v4)
        = Cert.LowRankLinear.out (argX m c) (argA m c) (argB m c) (argBias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (result_eq m c (hx c) (hA c) (hB c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelRun

end
-- ==== Proof.lean ====
/-
  The kernel and its reference compute one low-rank linear layer.

  Both programs take x (4 × 2048 rows of 4096 numbers), A (16 × 4096), B (4096 × 16) and a bias of 4096 entries, and return
      out (b, s, o) = Σ_k x (b, s, k) · W (o, k) + bias o,   W (o, k) = (Σ_q B (o, q) · A (q, k)) · 2.
  The reference forms W whole and contracts x with it. The kernel never forms W: in blocks of 512 rows it first takes the
  16 numbers (Σ_k x (b, s, k) · A (q, k)) · 2 and then combines them with row o of B. The two arrangements are c = 2 times the
  same double sum of x (b, s, k) · A (q, k) · B (o, q), grouped by q first or by k first; moving a factor across a sum is
  not valid on the extended reals at the infinities, and this is where the precondition is used: it makes every entry of
  the four arrays a real, so that both sides are readings of real numbers.
  The three frames are the generated ones (the reference's is its generated run with the result dropped); the
  idealization rewrote no operation, so there is nothing to preserve.
-/
import proofs.«141997_j14448269984184_1_alg».proof.Defs
import proofs.«141997_j14448269984184_1_alg».proof.Proof.Gen.Kernel
import proofs.«141997_j14448269984184_1_alg».proof.Proof.Gen.Kernel.Skeleton
import proofs.«141997_j14448269984184_1_alg».proof.Proof.Gen.Kernel.Launch
import proofs.«141997_j14448269984184_1_alg».proof.Proof.Gen.Kernel.Points
import proofs.«141997_j14448269984184_1_alg».proof.Proof.Gen.Kernel.Frame
import proofs.«141997_j14448269984184_1_alg».proof.Proof.Gen.KernelIdeal
import proofs.«141997_j14448269984184_1_alg».proof.Proof.Gen.KernelIdeal.Skeleton
import proofs.«141997_j14448269984184_1_alg».proof.Proof.Gen.KernelIdeal.Launch
import proofs.«141997_j14448269984184_1_alg».proof.Proof.Gen.KernelIdeal.Points
import proofs.«141997_j14448269984184_1_alg».proof.Proof.Gen.KernelIdeal.Frame
import proofs.«141997_j14448269984184_1_alg».proof.Proof.Gen.ReferenceIdeal
import proofs.«141997_j14448269984184_1_alg».proof.Proof.Gen.Pre_finite_inputs
import proofs.«141997_j14448269984184_1_alg».proof.Proof.Gen.ReferenceIdeal.Run
import proofs.«141997_j14448269984184_1_alg».proof.Proof.Gen.ReferenceIdeal.Read
import proofs.«141997_j14448269984184_1_alg».proof.Proof.FiniteEntries
import proofs.«141997_j14448269984184_1_alg».proof.Proof.ReferenceValue
import proofs.«141997_j14448269984184_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no call: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the layer of the arguments: the kernel's because the precondition makes x, A and B
    real (the bottleneck arrangement is then the layer), the reference's by reading its operations at an index; the two
    memories agree on the arguments. -/
theorem algebraic : Cert.algebraic_KernelIdeal_ReferenceIdeal := by
  intro m ρ m' ρ' hpre hagree
  have hfin := fun c => Cert.FiniteEntries.entries_real _ _ _ _ (hpre c)
  refine ⟨_, Cert.KernelRun.run m ρ (fun c => (hfin c).1) (fun c => (hfin c).2.1) (fun c => (hfin c).2.2.1), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceValue.stage_eq_out,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
